-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S300000x4 : Shape := ⟨2, ![300000, 4]⟩
abbrev S8x512 : Shape := ⟨2, ![8, 512]⟩
abbrev S256x512 : Shape := ⟨2, ![256, 512]⟩
abbrev S256 : Shape := ⟨1, ![256]⟩
abbrev S256x3 : Shape := ⟨2, ![256, 3]⟩
abbrev S3 : Shape := ⟨1, ![3]⟩
abbrev S_ : Shape := ⟨0, ![]⟩
abbrev S300000x1 : Shape := ⟨2, ![300000, 1]⟩
abbrev S300000 : Shape := ⟨1, ![300000]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S8x512 : S_.BroadcastsInDim S8x512 (![] : Fin 0 → Fin S8x512.rank)
  reducesTo_S8x512_S_d0_1 : S8x512.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_
  slices_S300000x4_S300000x1_0_0 : S300000x4.Slices ![0, 0] S300000x1
  shapeCasts_S300000x1_S300000 : S300000x1.ShapeCasts S300000
  bcast_S_S300000 : S_.BroadcastsInDim S300000 (![] : Fin 0 → Fin S300000.rank)
  reducesTo_S300000_S_d0 : S300000.ReducesTo [0] S_

variable [Facts]

def fn_part2 {F : FTy → Type} [FloatOps F] (main_v28 : IVec S_ 1) (main_v32 : IVec S300000 1) (main_v34 : IVec S300000 32) : IVec S_ 1 :=
  let main_c_11 : IVec S_ 32 := constantI S_ 32 8#32
  let main_v35 : IVec S300000 32 := broadcastInDim S300000 ![] bcast_S_S300000 main_c_11
  let main_v36 : IVec S300000 1 := cmpi .slt main_v34 main_v35
  let main_v37 : IVec S300000 1 := andi main_v32 main_v36
  let main_c_12 : IVec S_ 1 := constantI S_ 1 1#1
  let main_v38 : IVec S_ 1 := (fun x v => Host.reduce IntOp.andi x v reducesTo_S300000_S_d0 h_S_) main_v37 main_c_12
  let main_v39 : IVec S_ 1 := andi main_v28 main_v38
  main_v39

def fn_part1 {F : FTy → Type} [FloatOps F] (main_arg1 : IVec S300000x4 32) (main_arg5 : FVec F S256x3 .f32) (main_arg6 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x3 .f32 := Host.absf main_arg5
  let main_cst_6 : FVec F S_ .f32 := constant S_ .f32 0x7F800000#32
  let main_v20 : FVec F S256x3 .f32 := broadcastInDim S256x3 ![] bcast_S_S256x3 main_cst_6
  let main_v21 : IVec S256x3 1 := cmpf .olt main_v19 main_v20
  let main_c_7 : IVec S_ 1 := constantI S_ 1 1#1
  let main_v22 : IVec S_ 1 := (fun x v => Host.reduce IntOp.andi x v reducesTo_S256x3_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : IVec S300000x1 32 := (extractStridedSlice S300000x1 ![0, 0] · slices_S300000x4_S300000x1_0_0) main_arg1
  let main_v30 : IVec S300000 32 := shapeCast S300000 main_v29 shapeCasts_S300000x1_S300000
  let main_c_10 : IVec S_ 32 := constantI S_ 32 0#32
  let main_v31 : IVec S300000 32 := broadcastInDim S300000 ![] bcast_S_S300000 main_c_10
  let main_v32 : IVec S300000 1 := cmpi .sge main_v30 main_v31
  let main_v33 : IVec S300000x1 32 := (extractStridedSlice S300000x1 ![0, 0] · slices_S300000x4_S300000x1_0_0) main_arg1
  let main_v34 : IVec S300000 32 := shapeCast S300000 main_v33 shapeCasts_S300000x1_S300000
  fn_part2 (F := F) main_v28 main_v32 main_v34

def fn {F : FTy → Type} [FloatOps F] (main_arg0 : FVec F S300000x256 .f32) (main_arg1 : IVec S300000x4 32) (main_arg2 : FVec F S8x512 .f32) (main_arg3 : FVec F S256x512 .f32) (main_arg4 : FVec F S256 .f32) (main_arg5 : FVec F S256x3 .f32) (main_arg6 : FVec F S3 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S8x512 .f32 := Host.absf main_arg2
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S300000x256 : Shape := ⟨2, ![300000, 256]⟩
abbrev S300000x4 : Shape := ⟨2, ![300000, 4]⟩
abbrev S8x512 : Shape := ⟨2, ![8, 512]⟩
abbrev S256x512 : Shape := ⟨2, ![256, 512]⟩
abbrev S256 : Shape := ⟨1, ![256]⟩
abbrev S256x3 : Shape := ⟨2, ![256, 3]⟩
abbrev S3 : Shape := ⟨1, ![3]⟩
abbrev S512x256 : Shape := ⟨2, ![512, 256]⟩
abbrev S8x256 : Shape := ⟨2, ![8, 256]⟩
abbrev S_ : Shape := ⟨0, ![]⟩
abbrev S1x256 : Shape := ⟨2, ![1, 256]⟩
abbrev S1x3 : Shape := ⟨2, ![1, 3]⟩
abbrev S300000x3 : Shape := ⟨2, ![300000, 3]⟩
abbrev S4000x256 : Shape := ⟨2, ![4000, 256]⟩
abbrev S4000x4 : Shape := ⟨2, ![4000, 4]⟩
abbrev S4000x3 : Shape := ⟨2, ![4000, 3]⟩
abbrev S4000x1 : Shape := ⟨2, ![4000, 1]⟩
abbrev S4000 : Shape := ⟨1, ![4000]⟩
abbrev S4000x8 : Shape := ⟨2, ![4000, 8]⟩

abbrev nBuf : Space → Nat
  | .hbm => 20
  | .vmem => 9
  | .smem => 0
  | _ => 0

abbrev bufTy : (tb : Table) → Fin (tcTables nBuf tb) → BufTy
  | .hbm, ⟨0, _⟩ => ⟨S300000x256, .f32⟩
  | .hbm, ⟨1, _⟩ => ⟨S300000x4, .i32⟩
  | .hbm, ⟨2, _⟩ => ⟨S8x512, .f32⟩
  | .hbm, ⟨3, _⟩ => ⟨S256x512, .f32⟩
  | .hbm, ⟨4, _⟩ => ⟨S256, .f32⟩
  | .hbm, ⟨5, _⟩ => ⟨S256x3, .f32⟩
  | .hbm, ⟨6, _⟩ => ⟨S3, .f32⟩
  | .hbm, ⟨7, _⟩ => ⟨S512x256, .f32⟩
  | .hbm, ⟨8, _⟩ => ⟨S8x256, .f32⟩
  | .hbm, ⟨9, _⟩ => ⟨S_, .f32⟩
  | .hbm, ⟨10, _⟩ => ⟨S8x256, .f32⟩
  | .hbm, ⟨11, _⟩ => ⟨S8x256, .f32⟩
  | .hbm, ⟨12, _⟩ => ⟨S1x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S1x3, .f32⟩
  | .hbm, ⟨19, _⟩ => ⟨S300000x3, .f32⟩
  | .local _ .vmem, ⟨0, _⟩ => ⟨S4000x256, .f32⟩
  | .local _ .vmem, ⟨1, _⟩ => ⟨S4000x256, .f32⟩
  | .local _ .vmem, ⟨2, _⟩ => ⟨S4000x4, .i32⟩
  | .local _ .vmem, ⟨3, _⟩ => ⟨S4000x4, .i32⟩
  | .local _ .vmem, ⟨4, _⟩ => ⟨S8x256, .f32⟩
  | .local _ .vmem, ⟨5, _⟩ => ⟨S256x3, .f32⟩
  | .local _ .vmem, ⟨6, _⟩ => ⟨S1x3, .f32⟩
  | .local _ .vmem, ⟨7, _⟩ => ⟨S4000x3, .f32⟩
  | .local _ .vmem, ⟨8, _⟩ => ⟨S4000x3, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x512_S512x256_1_0 : S256x512.Transposes [1, 0] S512x256
  bcast_S_S8x256 : S_.BroadcastsInDim S8x256 (![] : Fin 0 → Fin S8x256.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  shapeCasts_S3_S1x3 : S3.ShapeCasts S1x3
  inb_S4000x4_S4000x1_0_0 : ∀ a, (![0, 0] : Fin 2 → Nat) a + S4000x1.size a ≤ S4000x4.size a
  h_S4000x1 : 0 < S4000x1.numel
  shapeCasts_S4000x1_S4000 : S4000x1.ShapeCasts S4000
  shapeCasts_S4000_S4000x1 : S4000.ShapeCasts S4000x1
  iota_S4000x8_d1_w32 : S4000x8.Iotas .tc 32 [1]
  broadcasts_S4000x1_S4000x8 : S4000x1.Broadcasts S4000x8
  natLt_1_32 : 1 < 32
  bitsLt_bf16_f32 : FTy.bits .bf16 < FTy.bits .f32
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S4000x256_S4000x256_0_0 : ∀ a, (![0, 0] : Fin 2 → Nat) a + S4000x256.size a ≤ S4000x256.size a
  h_S4000x256 : 0 < S4000x256.numel
  inb_S256x3_S256x3_0_0 : ∀ a, (![0, 0] : Fin 2 → Nat) a + S256x3.size a ≤ S256x3.size a
  h_S256x3 : 0 < S256x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  inb_S4000x3_S4000x3_0_0 : ∀ a, (![0, 0] : Fin 2 → Nat) a + S4000x3.size a ≤ S4000x3.size a
  h_S4000x3 : 0 < S4000x3.numel
  dot_S8x512_S512x256_S8x256_1_0_0_1_n_n_wf : DotDims.WF S8x512 S512x256 S8x256 [1] [0] [0] [1] [] []
  dot_S4000x8_S8x256_S4000x256_1_0_0_1_n_n_wf : DotDims.WF S4000x8 S8x256 S4000x256 [1] [0] [0] [1] [] []
  dot_S4000x256_S256x3_S4000x3_1_0_0_1_n_n_wf : DotDims.WF S4000x256 S256x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S300000x256.size a
  hwx0_0 : ∀ i : grid0.Coords, EltTy.bits .f32 = 32 ∨ (Rect.block (s := S300000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x4.size a ≤ S300000x4.size a
  hwx0_1 : ∀ i : grid0.Coords, EltTy.bits .i32 = 32 ∨ (Rect.block (s := S300000x4) S4000x4.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x256.size a
  hwx0_2 : ∀ i : grid0.Coords, EltTy.bits .f32 = 32 ∨ (Rect.block (s := S8x256) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x3.size a ≤ S256x3.size a
  hwx0_3 : ∀ i : grid0.Coords, EltTy.bits .f32 = 32 ∨ (Rect.block (s := S256x3) S256x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x3.size a ≤ S300000x3.size a
  hwx0_5 : ∀ i : grid0.Coords, EltTy.bits .f32 = 32 ∨ (Rect.block (s := S300000x3) S4000x3.size (cc0_transform_5 i) (hinb0_5 i)).WholeWords (EltTy.packing .f32)

variable [Facts₀]

def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def dot_S4000x8_S8x256_S4000x256_1_0_0_1_n_n : DotDims S4000x8 S8x256 S4000x256 where
  lhsContracting := [1]
  rhsContracting := [0]
  lhsNonContracting := [0]
  rhsNonContracting := [1]
  lhsBatch := []
  rhsBatch := []
  wf := dot_S4000x8_S8x256_S4000x256_1_0_0_1_n_n_wf
def dot_S4000x256_S256x3_S4000x3_1_0_0_1_n_n : DotDims S4000x256 S256x3 S4000x3 where
  lhsContracting := [1]
  rhsContracting := [0]
  lhsNonContracting := [0]
  rhsNonContracting := [1]
  lhsBatch := []
  rhsBatch := []
  wf := dot_S4000x256_S256x3_S4000x3_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4000x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S300000x256 : Shape := ⟨2, ![300000, 256]⟩
abbrev S300000x4 : Shape := ⟨2, ![300000, 4]⟩
abbrev S8x512 : Shape := ⟨2, ![8, 512]⟩
abbrev S256x512 : Shape := ⟨2, ![256, 512]⟩
abbrev S256 : Shape := ⟨1, ![256]⟩
abbrev S256x3 : Shape := ⟨2, ![256, 3]⟩
abbrev S3 : Shape := ⟨1, ![3]⟩
abbrev S512x256 : Shape := ⟨2, ![512, 256]⟩
abbrev S8x256 : Shape := ⟨2, ![8, 256]⟩
abbrev S_ : Shape := ⟨0, ![]⟩
abbrev S1x256 : Shape := ⟨2, ![1, 256]⟩
abbrev S300000x1 : Shape := ⟨2, ![300000, 1]⟩
abbrev S300000 : Shape := ⟨1, ![300000]⟩
abbrev S300000x3 : Shape := ⟨2, ![300000, 3]⟩
abbrev S1x3 : Shape := ⟨2, ![1, 3]⟩

abbrev nBuf : Space → Nat
  | .hbm => 42
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S300000x4, .i32⟩
  | .hbm, ⟨2, _⟩ => ⟨S8x512, .f32⟩
  | .hbm, ⟨3, _⟩ => ⟨S256x512, .f32⟩
  | .hbm, ⟨4, _⟩ => ⟨S256, .f32⟩
  | .hbm, ⟨5, _⟩ => ⟨S256x3, .f32⟩
  | .hbm, ⟨6, _⟩ => ⟨S3, .f32⟩
  | .hbm, ⟨7, _⟩ => ⟨S512x256, .f32⟩
  | .hbm, ⟨8, _⟩ => ⟨S8x256, .f32⟩
  | .hbm, ⟨9, _⟩ => ⟨S_, .f32⟩
  | .hbm, ⟨10, _⟩ => ⟨S8x256, .f32⟩
  | .hbm, ⟨11, _⟩ => ⟨S8x256, .f32⟩
  | .hbm, ⟨12, _⟩ => ⟨S1x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S300000x1, .i32⟩
  | .hbm, ⟨19, _⟩ => ⟨S300000, .i32⟩
  | .hbm, ⟨20, _⟩ => ⟨S_, .i32⟩
  | .hbm, ⟨21, _⟩ => ⟨S300000, .i32⟩
  | .hbm, ⟨22, _⟩ => ⟨S300000, .i1⟩
  | .hbm, ⟨23, _⟩ => ⟨S_, .i32⟩
  | .hbm, ⟨24, _⟩ => ⟨S300000, .i32⟩
  | .hbm, ⟨25, _⟩ => ⟨S300000, .i32⟩
  | .hbm, ⟨26, _⟩ => ⟨S300000, .i32⟩
  | .hbm, ⟨27, _⟩ => ⟨S300000x1, .i32⟩
  | .hbm, ⟨28, _⟩ => ⟨S300000x256, .f32⟩
  | .hbm, ⟨29, _⟩ => ⟨S300000x256, .f32⟩
  | .hbm, ⟨30, _⟩ => ⟨S300000x3, .f32⟩
  | .hbm, ⟨31, _⟩ => ⟨S1x3, .f32⟩
  | .hbm, ⟨32, _⟩ => ⟨S300000x3, .f32⟩
  | .hbm, ⟨33, _⟩ => ⟨S300000x3, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S300000x3, .f32⟩
  | .hbm, ⟨38, _⟩ => ⟨S300000x3, .f32⟩
  | .hbm, ⟨39, _⟩ => ⟨S_, .f32⟩
  | .hbm, ⟨40, _⟩ => ⟨S300000x3, .f32⟩
  | .hbm, ⟨41, _⟩ => ⟨S300000x3, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  transposes_S256x512_S512x256_1_0 : S256x512.Transposes [1, 0] S512x256
  bcast_S_S8x256 : S_.BroadcastsInDim S8x256 (![] : Fin 0 → Fin S8x256.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  slices_S300000x4_S300000x1_0_0 : S300000x4.Slices ![0, 0] S300000x1
  shapeCasts_S300000x1_S300000 : S300000x1.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  bcast_S3_S1x3_1 : S3.BroadcastsInDim S1x3 (![1] : Fin 1 → Fin S1x3.rank)
  bcast_S1x3_S300000x3_0_1 : S1x3.BroadcastsInDim S300000x3 (![0, 1] : Fin 2 → Fin S300000x3.rank)
  bcast_S_S300000x3 : S_.BroadcastsInDim S300000x3 (![] : Fin 0 → Fin S300000x3.rank)
  dot_S8x512_S512x256_S8x256_1_0_0_1_n_n_wf : DotDims.WF S8x512 S512x256 S8x256 [1] [0] [0] [1] [] []
  gather_S8x256_S300000x1_S300000x256_1_0_n_n_0_1_1256_wf : GatherDims.WF S8x256 S300000x1 S300000x256 [1] [0] [] [0] [] 1 ![1, 256]
  dot_S300000x256_S256x3_S300000x3_1_0_0_1_n_n_wf : DotDims.WF S300000x256 S256x3 S300000x3 [1] [0] [0] [1] [] []

variable [Facts₀]

def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def gather_S8x256_S300000x1_S300000x256_1_0_n_n_0_1_1256 : GatherDims S8x256 S300000x1 S300000x256 where
  offsetDims := [1]
  collapsedSliceDims := [0]
  operandBatchingDims := []
  startIndicesBatchingDims := []
  startIndexMap := [0]
  indexVectorDim := 1
  sliceSizes := ![1, 256]
  wf := gather_S8x256_S300000x1_S300000x256_1_0_n_n_0_1_1256_wf
def dot_S300000x256_S256x3_S300000x3_1_0_0_1_n_n : DotDims S300000x256 S256x3 S300000x3 where
  lhsContracting := [1]
  rhsContracting := [0]
  lhsNonContracting := [0]
  rhsNonContracting := [1]
  lhsBatch := []
  rhsBatch := []
  wf := dot_S300000x256_S256x3_S300000x3_1_0_0_1_n_n_wf

class Facts : Prop extends Facts₀ where

variable [Facts]
-- ==== Proof.BatchRange.lean ====
/-
  THE BATCH NUMBERS ARE ROWS OF THE STYLE TABLE.

  The precondition is a conjunction whose last conjunct says, of the coordinate array `coord : [300000, 4]`,
  `all (coord[:, 0] ≥ 0 ∧ coord[:, 0] < 8)` (signed comparisons). It prints as the `and`-reduction, from 1, of the
  [300000] array of bits `(col ≥ 0) ∧ (col < 8)`, where `col` is column 0 of `coord` sliced out and reshaped to a
  vector. A reduction by `and` that comes out 1 met only ones, so the bit at every point `n` is 1, and the two signed
  comparisons at `n` say `0 ≤ coord[n, 0] < 8`.
-/
import proofs.«414444_j43104291782965_1_alg».proof.Pre_finite_inputs
import Idealize.ShloMosaic.PureOps.Ideal
import Idealize.ShloMosaic.Lib.ValueIdx
import Idealize.ShloMosaic.Lib.ReduceAll
import Idealize.ShloMosaic.Lib.Pipeline.Value

noncomputable section

namespace Cert.Bridge.Range

open Idealize.ShloMosaic Idealize.ShloMosaic.ValueIdx Cert.Pre_finite_inputs

variable [Cert.Pre_finite_inputs.Facts]
open Cert.Pre_finite_inputs.Facts

/-- The scalar shape has one index. -/
instance : Subsingleton S_.Idx := ⟨fun a b => funext fun d => d.elim0⟩

/-- Column 0 of the coordinate array, sliced out as a [300000, 1] column and reshaped to a [300000] vector, reads
    `coord[n, 0]` at `n`. -/
theorem col0_apply (coord : IVec S300000x4 32) (n : Fin 300000) :
    shapeCast S300000 (extractStridedSlice S300000x1 ![0, 0] coord slices_S300000x4_S300000x1_0_0)
      shapeCasts_S300000x1_S300000 (ix1 n) = coord (ix2 n 0) := by
  rw [shapeCast_apply _ shapeCasts_S300000x1_S300000 (ix1 n) (ix2 n (0 : Fin 1))
    (by rewrite [Shape.rowMajor_val_two, Shape.rowMajor_val_one]; show n.val * 1 + 0 = n.val; omega)]
  exact extractStridedSlice_apply ![0, 0] coord slices_S300000x4_S300000x1_0_0 (ix2 n (0 : Fin 1)) (ix2 n (0 : Fin 4))
    (fun a => match a with
      | ⟨0, _⟩ => by show n.val = 0 + n.val; omega
      | ⟨1, _⟩ => by show (0 : Nat) = 0 + 0; rfl)

/-- A scalar word broadcast along the [300000] vector reads the word everywhere. -/
theorem splat_apply (w : BitVec 32) (n : Fin 300000) :
    broadcastInDim S300000 ![] bcast_S_S300000 (constantI S_ 32 w) (ix1 n) = w :=
  broadcastInDim_apply _ bcast_S_S300000 (constantI S_ 32 w) (ix1 n) ix0 (fun a => a.elim0)

/-- THE PRECONDITION READ AT POINT `n`: the batch number `coord[n, 0]`, read signed, is one of 0 … 7. Stated for any
    float instance: the float conjuncts are not opened. -/
theorem batch_in_range {F : FTy → Type} [FloatOps F] (a0 : FVec F S300000x256 .f32) (coord : IVec S300000x4 32)
    (a2 : FVec F S8x512 .f32) (a3 : FVec F S256x512 .f32) (a4 : FVec F S256 .f32) (a5 : FVec F S256x3 .f32)
    (a6 : FVec F S3 .f32) (h : fn (F := F) a0 coord a2 a3 a4 a5 a6 = fun _ => 1#1) (n : Fin 300000) :
    0 ≤ (coord (ix2 n 0)).toInt ∧ (coord (ix2 n 0)).toInt < 8 := by
  have h0 := congrFun h ix0
  dsimp only [fn, fn_part1, fn_part2] at h0
  have h1 := (IntOp.andi_eq_one.1 h0).2
  have h2 := Host.reduce_andi_all _ _ _ _ _ h1 (ix1 n)
  obtain ⟨hge, hlt⟩ := IntOp.andi_eq_one.1 h2
  have hge' := IntOp.cmpi_sge.1 hge
  have hlt' := IntOp.cmpi_slt.1 hlt
  rw [col0_apply, splat_apply] at hge' hlt'
  exact ⟨by simpa using hge', by simpa using hlt'⟩

end Cert.Bridge.Range

end
-- ==== Proof.Spec.lean ====
/-
  THE COMMON VALUE OF THE TWO PROGRAMS.

  Inputs: point features `x : [300000, 256]`, point coordinates `coord : [300000, 4]` (integer words; column 0 is the
  point's batch number), a table of per-batch styles `S : [8, 256]`, a weight `cw : [256, 3]` and a bias `cb : [3]`.
  Each point's features are multiplied channel by channel by the style row of its batch, the result is multiplied by
  the weight, the bias is added and the sum is clipped to [lo, hi]:

      G[n, j] = min hi (max lo (∑ₖ (x[n, k] · S[batch n, k]) · cw[k, j] + cb[j])).

  One program finds the style row by indexing the table (a gather); the other multiplies the table by the one-hot
  row `[b = batch n]` and sums over the eight rows. On the extended reals `0 · s = 0` and `1 · s = s` for every
  `s`, infinite ones included, so the one-hot sum is the row itself (`sum_onehot`): no finiteness is used anywhere.
  What is used is that the batch number is a row of the table, `0 ≤ coord[n, 0] < 8`: outside that range the one-hot row
  is all zeros while the gather clamps. `batch` below is the clamped row, which is the batch number when it is in range.
-/
import Idealize.ShloMosaic.PureOps.Ideal
import Idealize.ShloMosaic.PureOps.Ideal.Laws
import Idealize.ShloMosaic.Lib.ValueIdx
import Idealize.ShloMosaic.Lib.Affine

open scoped BigOperators

noncomputable section

namespace Cert.Bridge.Spec

open Idealize.ShloMosaic Idealize.ShloMosaic.ValueIdx

/-- The clip bounds, as the two programs spell them: the f32 words of 256 and of −256. Both programs carry the same
    two words, so they are never evaluated. -/
abbrev hi : EReal := Ideal.ofBits .f32 0x43800000#32
abbrev lo : EReal := Ideal.ofBits .f32 0xC3800000#32

/-- The style row of point `n`: its batch number `coord[n, 0]`, read signed and clamped into the table's rows 0 … 7. -/
def batch (coord : IVec ⟨2, ![300000, 4]⟩ 32) (n : Fin 300000) : Fin 8 :=
  ⟨min (coord (ix2 n 0)).toInt.toNat 7, by omega⟩

/-- When the batch number is a row of the table, the clamp does nothing. -/
theorem batch_val (coord : IVec ⟨2, ![300000, 4]⟩ 32) (n : Fin 300000) (h0 : 0 ≤ (coord (ix2 n 0)).toInt)
    (h1 : (coord (ix2 n 0)).toInt < 8) : (batch coord n).val = (coord (ix2 n 0)).toInt.toNat := by
  show min (coord (ix2 n 0)).toInt.toNat 7 = _
  omega

/-- The result at point `n`, output channel `j`. -/
def Gat (x : (⟨2, ![300000, 256]⟩ : Shape).Idx → EReal) (coord : IVec ⟨2, ![300000, 4]⟩ 32)
    (S : (⟨2, ![8, 256]⟩ : Shape).Idx → EReal) (cw : (⟨2, ![256, 3]⟩ : Shape).Idx → EReal)
    (cb : (⟨1, ![3]⟩ : Shape).Idx → EReal) (n : Fin 300000) (j : Fin 3) : EReal :=
  min hi (max lo ((∑ k : Fin 256, (x (ix2 n k) * S (ix2 (batch coord n) k)) * cw (ix2 k j)) + cb (ix1 j)))

/-- The result array. -/
def G (x : (⟨2, ![300000, 256]⟩ : Shape).Idx → EReal) (coord : IVec ⟨2, ![300000, 4]⟩ 32)
    (S : (⟨2, ![8, 256]⟩ : Shape).Idx → EReal) (cw : (⟨2, ![256, 3]⟩ : Shape).Idx → EReal)
    (cb : (⟨1, ![3]⟩ : Shape).Idx → EReal) : (⟨2, ![300000, 3]⟩ : Shape).Idx → EReal :=
  fun i => Gat x coord S cw cb ⟨(i 0).val, (i 0).isLt⟩ ⟨(i 1).val, (i 1).isLt⟩

theorem G_apply (x : (⟨2, ![300000, 256]⟩ : Shape).Idx → EReal) (coord : IVec ⟨2, ![300000, 4]⟩ 32)
    (S : (⟨2, ![8, 256]⟩ : Shape).Idx → EReal) (cw : (⟨2, ![256, 3]⟩ : Shape).Idx → EReal)
    (cb : (⟨1, ![3]⟩ : Shape).Idx → EReal) (n : Fin 300000) (j : Fin 3) :
    G x coord S cw cb (ix2 n j) = Gat x coord S cw cb n j := rfl

/-! ## The one-hot row -/

/-- A sum against a one-hot row picks the row's entry: every other term is `0 · s = 0`, which holds for every
    extended real `s`. -/
theorem sum_onehot (r : Fin 8) (o S : Fin 8 → EReal) (ho : ∀ b, o b = if b = r then 1 else 0) :
    ∑ b : Fin 8, o b * S b = S r := by
  rw [Finset.sum_eq_single r]
  · rw [ho, if_pos rfl, one_mul]
  · intro b _ hb; rw [ho, if_neg hb, zero_mul]
  · intro h; exact absurd (Finset.mem_univ r) h

/-- A word that reads non-negative signed is the word of its own value. -/
theorem ofNat_toInt_toNat (w : BitVec 32) (h0 : 0 ≤ w.toInt) : BitVec.ofNat 32 w.toInt.toNat = w := by
  apply BitVec.eq_of_toNat_eq
  have h32 := w.isLt
  rw [BitVec.toNat_ofNat, BitVec.toInt_eq_toNat_cond] at *
  split at h0 <;> omega

/-- THE ONE-HOT ENTRY. Comparing the column number `b` (as a word) with a batch word `w` in [0, 8), widening the bit
    to a word and converting it to a float gives 1 when `b` is the batch number and 0 otherwise. -/
theorem onehot_entry (w : BitVec 32) (h0 : 0 ≤ w.toInt) (h1 : w.toInt < 8) (b r : Fin 8) (hr : r.val = w.toInt.toNat) :
    ((((IntOp.cmpi .eq (BitVec.ofNat 32 b.val) w).setWidth 32).toInt : ℝ) : EReal) = if b = r then 1 else 0 := by
  by_cases hb : b = r
  · have e : IntOp.cmpi .eq (BitVec.ofNat 32 b.val) w = 1#1 :=
      IntOp.cmpi_eq.2 (by rw [hb, hr]; exact ofNat_toInt_toNat w h0)
    rw [e, if_pos hb]
    have : ((1#1 : BitVec 1).setWidth 32).toInt = 1 := by decide
    rw [this]; norm_num
  · have e : IntOp.cmpi .eq (BitVec.ofNat 32 b.val) w = 0#1 := by
      refine eq_zero_of_ne_one fun h => hb ?_
      have hw : BitVec.ofNat 32 b.val = w := IntOp.cmpi_eq.1 h
      apply Fin.ext
      rw [hr, ← hw]
      have hb8 := b.isLt
      rw [BitVec.toInt_eq_toNat_cond, BitVec.toNat_ofNat]
      have : b.val % 2 ^ 32 = b.val := Nat.mod_eq_of_lt (by omega)
      rw [this]
      split <;> omega
    rw [e, if_neg hb]
    have : ((0#1 : BitVec 1).setWidth 32).toInt = 0 := by decide
    rw [this]; norm_num

end Cert.Bridge.Spec

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.RefValue.lean ====
/-
  THE REFERENCE COMPUTES `G`.

  The reference builds the style table `S` from the three parameter arrays (its stage `val_main_v8`, which this module
  never opens: the kernel's host prefix is the same operations), slices column 0 out of the coordinates, adds 8 to the
  negative batch numbers (jnp's wrap-around of a negative index), gathers the row `S[batch]` for every point,
  multiplies the features by it, multiplies by the weight, adds the bias and clips.
  A batch number `≥ 0` is left alone by the wrap-around, and the gather reads the row the number names, clamped into
  0 … 7: that is `Spec.batch`. The two matrix products are plain sums at the ideal values, and the rest is pointwise.
-/
import proofs.«414444_j43104291782965_1_alg».proof.Proof.Gen.ReferenceIdeal.Read
import proofs.«414444_j43104291782965_1_alg».proof.Proof.Spec
import proofs.«414444_j43104291782965_1_alg».proof.Proof.LibGatherScatter

open scoped BigOperators

noncomputable section

namespace Cert.Bridge.Ref

open Cert.ReferenceIdeal Cert.ReferenceIdeal.Gen Cert.ReferenceIdeal.Read
open Idealize.ShloMosaic Idealize.ShloMosaic.ValueIdx

/-- The start index the gather is given for point `n` is the batch number `coord[n, 0]` itself when that is not
    negative: the wrap-around `select (b < 0) (b + 8) b` keeps `b`. -/
theorem start_word (x1 : (⟨S300000x4, .i32⟩ : BufTy).Contents (Elt Ideal)) (n : Fin 300000)
    (h0 : 0 ≤ (x1 (ix2 n 0)).toInt) :
    val_main_v16 (F := Ideal) x1 (ix2 n (0 : Fin 1)) = x1 (ix2 n 0) := by
  have e16 : idx_main_v16 (ix2 n (0 : Fin 1)) = ix1 n :=
    funext fun a => Fin.ext (by match a with | ⟨0, _⟩ => rfl)
  have e10 : idx_main_v9 (idx_main_v10 (ix1 n)) = ix2 n 0 :=
    funext fun a => Fin.ext (by
      match a with
      | ⟨0, _⟩ => show n.val / 1 = n.val; omega
      | ⟨1, _⟩ => rfl)
  have hv10 : val_main_v10 (F := Ideal) x1 (ix1 n) = x1 (ix2 n 0) := by
    rw [val_main_v10_apply, val_main_v9_apply, e10]
  have hneg : IntOp.cmpi .slt (x1 (ix2 n 0)) 0#32 = 0#1 :=
    eq_zero_of_ne_one fun h => by
      have := IntOp.cmpi_slt.1 h
      have hz : (0#32 : BitVec 32).toInt = 0 := by decide
      omega
  rw [val_main_v16_apply, e16, val_main_v15_apply, val_main_v12_apply, hv10, val_main_v11_apply, val_main_c_apply, hneg,
    select_zero]

/-- The gathered style of point `n`, channel `k`, is the table's row `Spec.batch` at `k`. -/
theorem gathered (x1 : (⟨S300000x4, .i32⟩ : BufTy).Contents (Elt Ideal)) (x2 : (⟨S8x512, .f32⟩ : BufTy).Contents (Elt Ideal))
    (x3 : (⟨S256x512, .f32⟩ : BufTy).Contents (Elt Ideal)) (x4 : (⟨S256, .f32⟩ : BufTy).Contents (Elt Ideal))
    (n : Fin 300000) (k : Fin 256) (h0 : 0 ≤ (x1 (ix2 n 0)).toInt) :
    val_main_v17 (F := Ideal) x1 x2 x3 x4 (ix2 n k) = val_main_v8 (F := Ideal) x2 x3 x4 (ix2 (Spec.batch x1 n) k) := by
  unfold val_main_v17
  rw [Cert.Bridge.GS.gather_apply (by decide) gather_S8x256_S300000x1_S300000x256_1_0_n_n_0_1_1256 rfl rfl rfl rfl rfl
    (val_main_v8 (F := Ideal) x2 x3 x4) (val_main_v16 (F := Ideal) x1) n k]
  refine congrArg (val_main_v8 (F := Ideal) x2 x3 x4) (congrArg (fun r => ix2 r k) (Fin.ext ?_))
  show min (val_main_v16 (F := Ideal) x1 (ix2 n 0)).toInt.toNat (8 - 1) = min (x1 (ix2 n 0)).toInt.toNat 7
  rw [start_word x1 n h0]

/-- THE REFERENCE'S RESULT IS `G` of the arguments and the style table, when every batch number is a row of the table. -/
theorem result_eq (x0 : (⟨S300000x256, .f32⟩ : BufTy).Contents (Elt Ideal)) (x1 : (⟨S300000x4, .i32⟩ : BufTy).Contents (Elt Ideal))
    (x2 : (⟨S8x512, .f32⟩ : BufTy).Contents (Elt Ideal)) (x3 : (⟨S256x512, .f32⟩ : BufTy).Contents (Elt Ideal))
    (x4 : (⟨S256, .f32⟩ : BufTy).Contents (Elt Ideal)) (x5 : (⟨S256x3, .f32⟩ : BufTy).Contents (Elt Ideal))
    (x6 : (⟨S3, .f32⟩ : BufTy).Contents (Elt Ideal))
    (hr : ∀ n : Fin 300000, 0 ≤ (x1 (ix2 n 0)).toInt ∧ (x1 (ix2 n 0)).toInt < 8) :
    val_main_v23 (F := Ideal) x0 x1 x2 x3 x4 x5 x6 = Spec.G x0 x1 (val_main_v8 (F := Ideal) x2 x3 x4) x5 x6 := by
  funext i
  obtain ⟨n, j, rfl⟩ : ∃ (n : Fin 300000) (j : Fin 3), i = ix2 n j := ⟨i 0, i 1, eq_ix2 i⟩
  rw [Spec.G_apply]
  unfold Spec.Gat
  have el : ∀ k : Fin 256, lidx_main_v19 (ix2 n j) k = ix2 n k :=
    fun k => funext fun a => Fin.ext (by match a with | ⟨0, _⟩ => rfl | ⟨1, _⟩ => rfl)
  have er : ∀ k : Fin 256, ridx_main_v19 (ix2 n j) k = ix2 k j :=
    fun k => funext fun a => Fin.ext (by match a with | ⟨0, _⟩ => rfl | ⟨1, _⟩ => rfl)
  have eb : idx_main_v20 (idx_main_v21 (ix2 n j)) = ix1 j :=
    funext fun a => Fin.ext (by match a with | ⟨0, _⟩ => rfl)
  rw [val_main_v23_apply, val_main_call0_v4_apply, val_main_call0_v3_apply, val_main_cst_3_apply,
    val_main_call0_v2_apply, val_main_call0_v1_apply, val_main_call0_v0_apply, val_main_cst_2_apply,
    val_main_v22_apply, val_main_v19_apply, val_main_v21_apply, val_main_v20_apply, eb]
  simp only [Ideal.minimumf_def, Ideal.maximumf_def, Ideal.addf_def, Ideal.ofBits_def]
  refine congrArg (fun s => min Spec.hi (max Spec.lo (s + x6 (ix1 j)))) (Finset.sum_congr rfl fun k _ => ?_)
  rw [el, er, val_main_v18_apply, Ideal.mulf_def, gathered x1 x2 x3 x4 n k (hr n).1]

end Cert.Bridge.Ref

end
-- ==== Proof.KernelPoint.lean ====
/-
  THE KERNEL'S BODY AT ONE POINT OF A BLOCK.

  The body sees a block of 4000 points: their features `xb : [4000, 256]`, column 0 of their coordinates
  `cb0 : [4000, 1]`, and whole the style table `S : [8, 256]`, the weight `cw : [256, 3]` and the bias as a row
  `b : [1, 3]`. It builds the [4000, 8] matrix of bits `[column number = batch number]`, converts it to floats
  (a one-hot row per point), multiplies it by the table (a sum over the 8 rows), multiplies the features by the result,
  multiplies by the weight (a sum over the 256 channels), adds the bias row and clips.
  At the ideal values a change of float format is the identity and a matrix product into a zero accumulator is the
  plain sum of products, so at point `r`, output channel `j`, the body's value is

      min hi (max lo (∑ₖ (xb[r, k] · ∑_b onehot[r, b] · S[b, k]) · cw[k, j] + b[0, j])),

  and when the batch number of the point is one of 0 … 7 the inner sum is the table's row at that number
  (`Spec.sum_onehot`, `Spec.onehot_entry`).
-/
import proofs.«414444_j43104291782965_1_alg».proof.Proof.Gen.KernelIdeal.Skeleton
import proofs.«414444_j43104291782965_1_alg».proof.Proof.Spec
import Idealize.ShloMosaic.Lib.Pipeline.Value
import Idealize.ShloMosaic.Lib.ValueLayout

open scoped BigOperators

noncomputable section

namespace Cert.Bridge.Point

open Cert.KernelIdeal Cert.KernelIdeal.Gen
open Idealize.ShloMosaic Idealize.ShloMosaic.ValueIdx

/-! ## The two matrix products as sums

  For each of the body's two dimension-number records (rows × contraction times contraction × columns, no batch axis):
  the operand indices at output index (r, c) and contraction index k are (r, k) and (k, c). -/

theorem lhsA_0 (i : S4000x256.Idx) (q : dot_S4000x8_S8x256_S4000x256_1_0_0_1_n_n.contr.Idx) :
    (dot_S4000x8_S8x256_S4000x256_1_0_0_1_n_n.lhsIdx i q 0).val = (i 0).val := by
  unfold DotDims.lhsIdx
  rw [dif_neg (show ¬(0 : Fin S4000x8.rank) ∈ dot_S4000x8_S8x256_S4000x256_1_0_0_1_n_n.lhsBatch by decide), dif_pos (show (0 : Fin S4000x8.rank) ∈ dot_S4000x8_S8x256_S4000x256_1_0_0_1_n_n.lhsNonContracting by decide)]
  rfl
theorem lhsA_1 (i : S4000x256.Idx) (q : dot_S4000x8_S8x256_S4000x256_1_0_0_1_n_n.contr.Idx) :
    (dot_S4000x8_S8x256_S4000x256_1_0_0_1_n_n.lhsIdx i q 1).val = (q ⟨0, by decide⟩).val :=
  dot_S4000x8_S8x256_S4000x256_1_0_0_1_n_n.lhsIdx_val_of_single rfl i q
theorem rhsA_0 (i : S4000x256.Idx) (q : dot_S4000x8_S8x256_S4000x256_1_0_0_1_n_n.contr.Idx) :
    (dot_S4000x8_S8x256_S4000x256_1_0_0_1_n_n.rhsIdx i q 0).val = (q ⟨0, by decide⟩).val :=
  dot_S4000x8_S8x256_S4000x256_1_0_0_1_n_n.rhsIdx_val_of_single rfl i q
theorem rhsA_1 (i : S4000x256.Idx) (q : dot_S4000x8_S8x256_S4000x256_1_0_0_1_n_n.contr.Idx) :
    (dot_S4000x8_S8x256_S4000x256_1_0_0_1_n_n.rhsIdx i q 1).val = (i 1).val := by
  unfold DotDims.rhsIdx
  rw [dif_neg (show ¬(1 : Fin S8x256.rank) ∈ dot_S4000x8_S8x256_S4000x256_1_0_0_1_n_n.rhsBatch by decide), dif_pos (show (1 : Fin S8x256.rank) ∈ dot_S4000x8_S8x256_S4000x256_1_0_0_1_n_n.rhsNonContracting by decide)]
  rfl

theorem lhsB_0 (i : S4000x3.Idx) (q : dot_S4000x256_S256x3_S4000x3_1_0_0_1_n_n.contr.Idx) :
    (dot_S4000x256_S256x3_S4000x3_1_0_0_1_n_n.lhsIdx i q 0).val = (i 0).val := by
  unfold DotDims.lhsIdx
  rw [dif_neg (show ¬(0 : Fin S4000x256.rank) ∈ dot_S4000x256_S256x3_S4000x3_1_0_0_1_n_n.lhsBatch by decide), dif_pos (show (0 : Fin S4000x256.rank) ∈ dot_S4000x256_S256x3_S4000x3_1_0_0_1_n_n.lhsNonContracting by decide)]
  rfl
theorem lhsB_1 (i : S4000x3.Idx) (q : dot_S4000x256_S256x3_S4000x3_1_0_0_1_n_n.contr.Idx) :
    (dot_S4000x256_S256x3_S4000x3_1_0_0_1_n_n.lhsIdx i q 1).val = (q ⟨0, by decide⟩).val :=
  dot_S4000x256_S256x3_S4000x3_1_0_0_1_n_n.lhsIdx_val_of_single rfl i q
theorem rhsB_0 (i : S4000x3.Idx) (q : dot_S4000x256_S256x3_S4000x3_1_0_0_1_n_n.contr.Idx) :
    (dot_S4000x256_S256x3_S4000x3_1_0_0_1_n_n.rhsIdx i q 0).val = (q ⟨0, by decide⟩).val :=
  dot_S4000x256_S256x3_S4000x3_1_0_0_1_n_n.rhsIdx_val_of_single rfl i q
theorem rhsB_1 (i : S4000x3.Idx) (q : dot_S4000x256_S256x3_S4000x3_1_0_0_1_n_n.contr.Idx) :
    (dot_S4000x256_S256x3_S4000x3_1_0_0_1_n_n.rhsIdx i q 1).val = (i 1).val := by
  unfold DotDims.rhsIdx
  rw [dif_neg (show ¬(1 : Fin S256x3.rank) ∈ dot_S4000x256_S256x3_S4000x3_1_0_0_1_n_n.rhsBatch by decide), dif_pos (show (1 : Fin S256x3.rank) ∈ dot_S4000x256_S256x3_S4000x3_1_0_0_1_n_n.rhsNonContracting by decide)]
  rfl

/-- The product with the style table: a sum over the table's 8 rows. -/
theorem prodA_apply (L : FVec Ideal S4000x8 .bf16) (R : FVec Ideal S8x256 .bf16) (r : Fin 4000) (c : Fin 256) :
    matmul dot_S4000x8_S8x256_S4000x256_1_0_0_1_n_n none L R (constant S4000x256 .f32 0x00000000#32) (ix2 r c)
      = ∑ k : Fin 8, L (ix2 r k) * R (ix2 k c) := by
  simp only [matmul]
  rw [Ideal.matmul_constant_zero_apply, ← Equiv.sum_comp (contrEquiv1 dot_S4000x8_S8x256_S4000x256_1_0_0_1_n_n 8 rfl rfl).symm]
  refine Finset.sum_congr rfl fun k _ => ?_
  have hk := contrEquiv1_symm_val dot_S4000x8_S8x256_S4000x256_1_0_0_1_n_n 8 rfl rfl k
  have el : dot_S4000x8_S8x256_S4000x256_1_0_0_1_n_n.lhsIdx (ix2 r c) ((contrEquiv1 dot_S4000x8_S8x256_S4000x256_1_0_0_1_n_n 8 rfl rfl).symm k) = ix2 r k := funext fun a => Fin.ext (by
    match a with
    | ⟨0, _⟩ => exact lhsA_0 _ _
    | ⟨1, _⟩ => exact (lhsA_1 _ _).trans hk)
  have er : dot_S4000x8_S8x256_S4000x256_1_0_0_1_n_n.rhsIdx (ix2 r c) ((contrEquiv1 dot_S4000x8_S8x256_S4000x256_1_0_0_1_n_n 8 rfl rfl).symm k) = ix2 k c := funext fun a => Fin.ext (by
    match a with
    | ⟨0, _⟩ => exact (rhsA_0 _ _).trans hk
    | ⟨1, _⟩ => exact rhsA_1 _ _)
  rw [el, er]

/-- The product with the weight: a sum over the 256 channels. -/
theorem prodB_apply (L : FVec Ideal S4000x256 .bf16) (R : FVec Ideal S256x3 .bf16) (r : Fin 4000) (c : Fin 3) :
    matmul dot_S4000x256_S256x3_S4000x3_1_0_0_1_n_n none L R (constant S4000x3 .f32 0x00000000#32) (ix2 r c)
      = ∑ k : Fin 256, L (ix2 r k) * R (ix2 k c) := by
  simp only [matmul]
  rw [Ideal.matmul_constant_zero_apply, ← Equiv.sum_comp (contrEquiv1 dot_S4000x256_S256x3_S4000x3_1_0_0_1_n_n 256 rfl rfl).symm]
  refine Finset.sum_congr rfl fun k _ => ?_
  have hk := contrEquiv1_symm_val dot_S4000x256_S256x3_S4000x3_1_0_0_1_n_n 256 rfl rfl k
  have el : dot_S4000x256_S256x3_S4000x3_1_0_0_1_n_n.lhsIdx (ix2 r c) ((contrEquiv1 dot_S4000x256_S256x3_S4000x3_1_0_0_1_n_n 256 rfl rfl).symm k) = ix2 r k := funext fun a => Fin.ext (by
    match a with
    | ⟨0, _⟩ => exact lhsB_0 _ _
    | ⟨1, _⟩ => exact (lhsB_1 _ _).trans hk)
  have er : dot_S4000x256_S256x3_S4000x3_1_0_0_1_n_n.rhsIdx (ix2 r c) ((contrEquiv1 dot_S4000x256_S256x3_S4000x3_1_0_0_1_n_n 256 rfl rfl).symm k) = ix2 k c := funext fun a => Fin.ext (by
    match a with
    | ⟨0, _⟩ => exact (rhsB_0 _ _).trans hk
    | ⟨1, _⟩ => exact rhsB_1 _ _)
  rw [el, er]

/-! ## The one-hot matrix and the bias row -/

/-- Entry (r, b) of the one-hot matrix: the bit `[b = batch number of point r]`, widened and read as a float. The batch
    column reshaped to a vector and back is itself; broadcast along the 8 columns it reads its row's one entry. -/
theorem onehot_apply (v0 : Vec Ideal S4000x1 .i32) (r : Fin 4000) (b : Fin 8) :
    (truncf .bf16 (sitofp .f32 (extui 32 (cmpi .eq (iota .tc S4000x8 32 [1] iota_S4000x8_d1_w32)
        (broadcastTo S4000x8 (shapeCast S4000x1 (shapeCast S4000 v0 shapeCasts_S4000x1_S4000) shapeCasts_S4000_S4000x1)
          broadcasts_S4000x1_S4000x8)) natLt_1_32)) bitsLt_bf16_f32 : FVec Ideal S4000x8 .bf16) (ix2 r b)
      = ((((IntOp.cmpi .eq (BitVec.ofNat 32 b.val) (v0 (ix2 r 0))).setWidth 32).toInt : ℝ) : EReal) := by
  rw [shapeCast_shapeCast]
  show ((((IntOp.cmpi .eq (iota .tc S4000x8 32 [1] iota_S4000x8_d1_w32 (ix2 r b))
      (broadcastTo S4000x8 v0 broadcasts_S4000x1_S4000x8 (ix2 r b))).setWidth 32).toInt : ℝ) : EReal) = _
  rw [iota_single_apply, broadcastTo_apply v0 broadcasts_S4000x1_S4000x8 (ix2 r b) (ix2 r (0 : Fin 1)) (fun a => match a with
    | ⟨0, _⟩ => by show r.val = if (4000 : Nat) = 1 then 0 else r.val; rw [if_neg (by decide)]
    | ⟨1, _⟩ => by show (0 : Nat) = if (1 : Nat) = 1 then 0 else b.val; rw [if_pos rfl])]

/-- The bias row broadcast over the 4000 points reads, at (r, j), the row's entry j. -/
theorem bias_apply (v19 : Vec Ideal S1x3 .f32) (r : Fin 4000) (j : Fin 3) :
    broadcastTo S4000x3 (shapeCast S1x3 v19 shapeCasts_S1x3_S1x3) broadcasts_S1x3_S4000x3 (ix2 r j) = v19 (ix2 (0 : Fin 1) j) := by
  rw [shapeCast_self]
  exact broadcastTo_1b_ab_apply v19 broadcasts_S1x3_S4000x3 r j

/-! ## The body's value -/

/-- THE BODY'S VALUE AT POINT `r`, CHANNEL `j`, when the point's batch number is the table row `rr`. -/
theorem pay_apply (v0 : Vec Ideal S4000x1 .i32) (v9 : Vec Ideal S8x256 .f32) (v13 : Vec Ideal S4000x256 .f32)
    (v16 : Vec Ideal S256x3 .f32) (v19 : Vec Ideal S1x3 .f32) (r : Fin 4000) (j : Fin 3) (rr : Fin 8)
    (h0 : 0 ≤ (v0 (ix2 r 0)).toInt) (h1 : (v0 (ix2 r 0)).toInt < 8) (hrr : rr.val = (v0 (ix2 r 0)).toInt.toNat) :
    k0_pay1 (F := Ideal) v0 v9 v13 v16 v19 (ix2 r j)
      = min Spec.hi (max Spec.lo ((∑ k : Fin 256, (v13 (ix2 r k) * v9 (ix2 rr k)) * v16 (ix2 k j)) + v19 (ix2 (0 : Fin 1) j))) := by
  unfold k0_pay1
  dsimp only
  rw [minimumf_apply, maximumf_apply, addf_apply, broadcast_apply, broadcast_apply, prodB_apply, bias_apply]
  refine congrArg (fun s => min Spec.hi (max Spec.lo (s + v19 (ix2 (0 : Fin 1) j)))) (Finset.sum_congr rfl fun k _ => ?_)
  rw [truncf_apply, truncf_apply, mulf_apply, prodA_apply]
  refine congrArg (fun s => v13 (ix2 r k) * s * v16 (ix2 k j)) ?_
  rw [shapeCast_self]
  exact Spec.sum_onehot rr _ (fun b => v9 (ix2 b k)) (fun b => by
    rw [onehot_apply]; exact Spec.onehot_entry _ h0 h1 b rr hrr)

/-- The same at an index `y` of the block given with its coordinates. -/
theorem pay_apply_at (v0 : Vec Ideal S4000x1 .i32) (v9 : Vec Ideal S8x256 .f32) (v13 : Vec Ideal S4000x256 .f32)
    (v16 : Vec Ideal S256x3 .f32) (v19 : Vec Ideal S1x3 .f32) (y : S4000x3.Idx) (r : Fin 4000) (j : Fin 3)
    (hy : y = ix2 r j) (rr : Fin 8)
    (h0 : 0 ≤ (v0 (ix2 r 0)).toInt) (h1 : (v0 (ix2 r 0)).toInt < 8) (hrr : rr.val = (v0 (ix2 r 0)).toInt.toNat) :
    k0_pay1 (F := Ideal) v0 v9 v13 v16 v19 y
      = min Spec.hi (max Spec.lo ((∑ k : Fin 256, (v13 (ix2 r k) * v9 (ix2 rr k)) * v16 (ix2 k j)) + v19 (ix2 (0 : Fin 1) j))) := by
  subst hy
  exact pay_apply v0 v9 v13 v16 v19 r j rr h0 h1 hrr

end Cert.Bridge.Point

end
-- ==== Proof.KernelArray.lean ====
/-
  FROM THE BLOCKS TO THE WHOLE RESULT ARRAY.

  The kernel runs over 75 grid points. Point `t` is given rows 4000·t … 4000·t + 3999 of the features and of the
  coordinates (block index (t, 0)), the whole style table, weight and bias row (block index (0, 0)), and writes back
  rows 4000·t … 4000·t + 3999 of the [300000, 3] result. So what point `t` writes back is block `t` of ONE function of
  the arrays the region finds: `Spec.G` of the features, the coordinates, the style table, the weight and the bias row
  (`flushed_eq`: the body's value at a point of the block, `Point.pay_apply_at`, with every block entry read as the
  array entry 4000·t rows further down). Row `n` of the result lies in the block of point `n / 4000`, so the 75 blocks
  cover the array (`cover`), and the array ends holding that function (`final`).
  Two of the arrays the region finds were written by host operations before it: the style table (never opened here:
  the reference builds it with the same operations) and the bias reshaped to a row.
-/
import proofs.«414444_j43104291782965_1_alg».proof.Proof.Gen.KernelIdeal.Value
import proofs.«414444_j43104291782965_1_alg».proof.Proof.KernelPoint
import Idealize.ShloMosaic.Lib.StableHlo.Run

set_option maxRecDepth 16384

open scoped BigOperators

noncomputable section

namespace Cert.Bridge.Kernel

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 75 points: the features, the coordinates and the result move down one
    block per point; the table, the weight and the bias row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The arrays as the region finds them, at their literal types -/

abbrev feat (c : Dev nD) : S300000x256.Idx → EReal := V m c main_arg0
abbrev coord (c : Dev nD) : IVec S300000x4 32 := V m c main_arg1
abbrev table (c : Dev nD) : S8x256.Idx → EReal := V m c main_v8
abbrev weight (c : Dev nD) : S256x3.Idx → EReal := V m c main_arg5
abbrev biasRow (c : Dev nD) : S1x3.Idx → EReal := V m c main_v9

/-- The bias row as a vector of its 3 entries. -/
abbrev biasVec (c : Dev nD) : (⟨1, ![3]⟩ : Shape).Idx → EReal := fun i => biasRow m c (ix2 (0 : Fin 1) ⟨(i 0).val, (i 0).isLt⟩)

/-- What the result array ends holding. -/
abbrev Gk (c : Dev nD) : S300000x3.Idx → EReal :=
  Spec.G (feat m c) (coord m c) (table m c) (weight m c) (biasVec m c)

/-! ## The blocks' entries as array entries -/

theorem featBlk (c : Dev nD) (t : Fin cfg0.N) (r : Fin 4000) (k : Fin 256) (hn : 4000 * t.val + r.val < 300000) :
    iblk m c 0 t (ix2 r k) = feat m c (ix2 ⟨4000 * t.val + r.val, hn⟩ k) := by
  obtain ⟨e0, e1, -⟩ := idx_facts t
  show V m c main_arg0 (((cfg0.win 0).blk t).view.emb (ix2 r k)) = V m c main_arg0 _
  refine congrArg (V m c main_arg0) (funext fun a => Fin.ext ?_)
  match a with
  | ⟨0, _⟩ => show win0_0.index t (0 : Fin 2) * 4000 + 1 * r.val = 4000 * t.val + r.val; omega
  | ⟨1, _⟩ => show win0_0.index t (1 : Fin 2) * 256 + 1 * k.val = k.val; omega

/-- Column 0 of the coordinate block, as the body loads it. -/
theorem coordBlk (c : Dev nD) (t : Fin cfg0.N) (r : Fin 4000) (hn : 4000 * t.val + r.val < 300000) :
    View.ld (iblk m c 1 t) r0_0 (ix2 r (0 : Fin 1)) = coord m c (ix2 ⟨4000 * t.val + r.val, hn⟩ 0) := by
  obtain ⟨-, -, e0, e1, -⟩ := idx_facts t
  show V m c main_arg1 (((cfg0.win 1).blk t).view.emb (r0_0.idx (ix2 r (0 : Fin 1)))) = V m c main_arg1 _
  refine congrArg (V m c main_arg1) (funext fun a => Fin.ext ?_)
  match a with
  | ⟨0, _⟩ => show win0_1.index t (0 : Fin 2) * 4000 + 1 * (0 + 1 * r.val) = 4000 * t.val + r.val; omega
  | ⟨1, _⟩ => show win0_1.index t (1 : Fin 2) * 4 + 1 * (0 + 1 * 0) = 0; omega

theorem tableBlk (c : Dev nD) (t : Fin cfg0.N) (b : Fin 8) (k : Fin 256) :
    iblk m c 2 t (ix2 b k) = table m c (ix2 b k) := by
  obtain ⟨-, -, -, -, e0, e1, -⟩ := idx_facts t
  show V m c main_v8 (((cfg0.win 2).blk t).view.emb (ix2 b k)) = V m c main_v8 _
  refine congrArg (V m c main_v8) (funext fun a => Fin.ext ?_)
  match a with
  | ⟨0, _⟩ => show win0_2.index t (0 : Fin 2) * 8 + 1 * b.val = b.val; omega
  | ⟨1, _⟩ => show win0_2.index t (1 : Fin 2) * 256 + 1 * k.val = k.val; omega

theorem weightBlk (c : Dev nD) (t : Fin cfg0.N) (k : Fin 256) (j : Fin 3) :
    iblk m c 3 t (ix2 k j) = weight m c (ix2 k j) := by
  obtain ⟨-, -, -, -, -, -, e0, e1, -⟩ := idx_facts t
  show V m c main_arg5 (((cfg0.win 3).blk t).view.emb (ix2 k j)) = V m c main_arg5 _
  refine congrArg (V m c main_arg5) (funext fun a => Fin.ext ?_)
  match a with
  | ⟨0, _⟩ => show win0_3.index t (0 : Fin 2) * 256 + 1 * k.val = k.val; omega
  | ⟨1, _⟩ => show win0_3.index t (1 : Fin 2) * 3 + 1 * j.val = j.val; omega

theorem biasBlk (c : Dev nD) (t : Fin cfg0.N) (j : Fin 3) :
    iblk m c 4 t (ix2 (0 : Fin 1) j) = biasRow m c (ix2 (0 : Fin 1) j) := by
  obtain ⟨-, -, -, -, -, -, -, -, e0, e1, -⟩ := idx_facts t
  show V m c main_v9 (((cfg0.win 4).blk t).view.emb (ix2 (0 : Fin 1) j)) = V m c main_v9 _
  refine congrArg (V m c main_v9) (funext fun a => Fin.ext ?_)
  match a with
  | ⟨0, _⟩ => show win0_4.index t (0 : Fin 2) * 1 + 1 * 0 = 0; omega
  | ⟨1, _⟩ => show win0_4.index t (1 : Fin 2) * 3 + 1 * j.val = j.val; omega

/-! ## What a point writes back -/

/-- WHAT POINT `t` WRITES BACK is block `t` of `Gk`, when every batch number is a row of the style table. -/
theorem flushed_eq (c : Dev nD) (t : Fin cfg0.N)
    (hr : ∀ n : Fin 300000, 0 ≤ (coord m c (ix2 n 0)).toInt ∧ (coord m c (ix2 n 0)).toInt < 8) :
    (dats m 0 c).flushed 5 t = ((cfg0.win 5).blk t).view.read (Elt Ideal) (Gk m c) := by
  rw [Cert.KernelIdeal.Value.flushed5]
  unfold out0_5
  rw [View.canon_unit_zero hz]
  simp only [View.ld_unit_zero (S := S4000x256) hz, View.ld_unit_zero (S := S8x256) hz,
    View.ld_unit_zero (S := S256x3) hz, View.ld_unit_zero (S := S1x3) hz]
  funext y
  have ht : t.val < 75 := lt_of_lt_of_eq t.isLt N_0
  have hy0 : (y 0).val < 4000 := (y 0).isLt
  have hy1 : (y 1).val < 3 := (y 1).isLt
  have hn : 4000 * t.val + (y 0).val < 300000 := by omega
  obtain ⟨-, -, -, -, -, -, -, -, -, -, e0, e1⟩ := idx_facts t
  have hemb : ((cfg0.win 5).blk t).view.emb y
      = ix2 (⟨4000 * t.val + (y 0).val, hn⟩ : Fin 300000) (⟨(y 1).val, hy1⟩ : Fin 3) :=
    funext fun a => Fin.ext (by
      match a with
      | ⟨0, _⟩ => show win0_5.index t (0 : Fin 2) * 4000 + 1 * (y 0).val = 4000 * t.val + (y 0).val; omega
      | ⟨1, _⟩ => show win0_5.index t (1 : Fin 2) * 3 + 1 * (y 1).val = (y 1).val; omega)
  show k0_pay1 (F := Ideal) (View.ld (iblk m c 1 t) r0_0) (iblk m c 2 t) (iblk m c 0 t) (iblk m c 3 t) (iblk m c 4 t) y
    = Gk m c (((cfg0.win 5).blk t).view.emb y)
  rw [hemb]
  show _ = Spec.Gat (feat m c) (coord m c) (table m c) (weight m c) (biasVec m c)
    ⟨4000 * t.val + (y 0).val, hn⟩ ⟨(y 1).val, hy1⟩
  have hc := coordBlk m c t ⟨(y 0).val, hy0⟩ hn
  have hrn := hr ⟨4000 * t.val + (y 0).val, hn⟩
  refine (Point.pay_apply_at (View.ld (iblk m c 1 t) r0_0) (iblk m c 2 t) (iblk m c 0 t) (iblk m c 3 t) (iblk m c 4 t) y
    ⟨(y 0).val, hy0⟩ ⟨(y 1).val, hy1⟩ (funext fun a => Fin.ext (by match a with | ⟨0, _⟩ => rfl | ⟨1, _⟩ => rfl))
    (Spec.batch (coord m c) ⟨4000 * t.val + (y 0).val, hn⟩)
    (by rw [hc]; exact hrn.1) (by rw [hc]; exact hrn.2)
    (by rw [hc]; exact Spec.batch_val (coord m c) _ hrn.1 hrn.2)).trans ?_
  unfold Spec.Gat
  rw [biasBlk]
  refine congrArg (fun s => min Spec.hi (max Spec.lo (s + biasRow m c (ix2 (0 : Fin 1) ⟨(y 1).val, hy1⟩))))
    (Finset.sum_congr rfl fun k _ => ?_)
  rw [featBlk m c t ⟨(y 0).val, hy0⟩ k hn, tableBlk, weightBlk]

/-! ## The cover and the whole array -/

/-- An index of the result is in point `t`'s block iff each coordinate is in the block's range on its axis. -/
theorem mem_blk (t : Fin cfg0.N) (i : S300000x3.Idx) :
    i ∈ ((cfg0.win 5).blk t).view.set ↔ ∀ a : Fin 2, win0_5.index t a * S4000x3.size a ≤ (i a).val
      ∧ (i a).val < win0_5.index t a * S4000x3.size a + S4000x3.size a := by
  show i ∈ ((View.whole main_v10).slice (win0_5.rect t)).set ↔ _
  rw [View.set_slice_whole, Rect.mem_set_unit]
  exact Iff.rfl

/-- Row `n` of the result is written by point `n / 4000`: the 75 blocks cover the array. -/
theorem cover (i : S300000x3.Idx) :
    ∃ t : Fin cfg0.N, (cfg0.win 5).flush t = true ∧ i ∈ ((cfg0.win 5).blk t).view.set := by
  have hi0 : (i 0).val < 300000 := (i 0).isLt
  have hi1 : (i 1).val < 3 := (i 1).isLt
  have hN : cfg0.N = 75 := N_0
  refine ⟨⟨(i 0).val / 4000, by rw [hN]; omega⟩, flush0_5 _, ?_⟩
  obtain ⟨-, -, -, -, -, -, -, -, -, -, e0, e1⟩ := idx_facts ⟨(i 0).val / 4000, by rw [hN]; omega⟩
  rw [mem_blk]
  intro a
  match a with
  | ⟨0, _⟩ =>
    show win0_5.index _ (0 : Fin 2) * 4000 ≤ (i 0).val ∧ (i 0).val < win0_5.index _ (0 : Fin 2) * 4000 + 4000
    rw [e0]; show (i 0).val / 4000 * 4000 ≤ (i 0).val ∧ (i 0).val < (i 0).val / 4000 * 4000 + 4000; omega
  | ⟨1, _⟩ =>
    show win0_5.index _ (1 : Fin 2) * 3 ≤ (i 1).val ∧ (i 1).val < win0_5.index _ (1 : Fin 2) * 3 + 3
    rw [e1]; omega

/-- THE RESULT ARRAY after the run is `Gk`. -/
theorem final (c : Dev nD)
    (hr : ∀ n : Fin 300000, 0 ≤ (coord m c (ix2 n 0)).toInt ∧ (coord m c (ix2 n 0)).toInt < 8) :
    (dats m 0 c).arrAt 5 cfg0.N = Gk m c :=
  (dats m 0 c).arrAt_eq_of_cover 5 (Gk m c) (fun t _ => flushed_eq m c t hr) cover

/-! ## The arrays the region finds, from the arguments -/

/-- The style table as the host operations before the region build it from the latent codes `w : [8, 512]`, the affine
    weight `aw : [256, 512]` and the affine bias `ab : [256]`: `((w · awᵀ) · g + ab) · g'` with the two gains as the
    printed f32 words. The reference builds its table with the same operations, so this term is compared whole and
    never opened. -/
def stylesOf (w : FVec Ideal S8x512 .f32) (aw : FVec Ideal S256x512 .f32) (ab : FVec Ideal S256 .f32) : FVec Ideal S8x256 .f32 :=
  mulf (addf (mulf (Host.dotGeneral dot_S8x512_S512x256_S8x256_1_0_0_1_n_n none w
          (transpose S512x256 [1, 0] aw transposes_S256x512_S512x256_1_0))
        (broadcastInDim S8x256 ![] bcast_S_S8x256 (constant (F := Ideal) S_ .f32 0x3D3504F3#32)))
      (broadcastInDim S8x256 ![0, 1] bcast_S1x256_S8x256_0_1 (broadcastInDim S1x256 ![1] bcast_S256_S1x256_1 ab)))
    (broadcastInDim S8x256 ![] bcast_S_S8x256 (constant (F := Ideal) S_ .f32 0x3D800000#32))

theorem feat_eq (c : Dev nD) : feat m c = m ((c : Thread nD τ).loc main_arg0) := V_main_arg0 m c
theorem coord_eq (c : Dev nD) : coord m c = m ((c : Thread nD τ).loc main_arg1) := V_main_arg1 m c
theorem weight_eq (c : Dev nD) : weight m c = m ((c : Thread nD τ).loc main_arg5) := V_main_arg5 m c

theorem table_eq (c : Dev nD) :
    table m c = stylesOf (m ((c : Thread nD τ).loc main_arg2)) (m ((c : Thread nD τ).loc main_arg3)) (m ((c : Thread nD τ).loc main_arg4)) := by
  unfold stylesOf
  dsimp only [table, V, hostOps0]; after_results

/-- The bias row is the bias vector reshaped [3] → [1, 3]. -/
theorem biasRow_eq (c : Dev nD) :
    biasRow m c = shapeCast S1x3 (m ((c : Thread nD τ).loc main_arg6)) shapeCasts_S3_S1x3 := by
  dsimp only [biasRow, V, hostOps0]; after_results; rfl

theorem biasVec_eq (c : Dev nD) : biasVec m c = m ((c : Thread nD τ).loc main_arg6) := by
  funext i
  obtain ⟨j, rfl⟩ : ∃ j : Fin 3, i = ix1 j := ⟨i 0, eq_ix1 i⟩
  show biasRow m c (ix2 (0 : Fin 1) j) = _
  rw [biasRow_eq]
  exact shapeCast_a_1a_apply (m ((c : Thread nD τ).loc main_arg6)) shapeCasts_S3_S1x3 0 j

/-- THE RESULT ARRAY as a function of the arguments alone. -/
theorem Gk_eq (c : Dev nD) :
    Gk m c = Spec.G (m ((c : Thread nD τ).loc main_arg0)) (m ((c : Thread nD τ).loc main_arg1))
      (stylesOf (m ((c : Thread nD τ).loc main_arg2)) (m ((c : Thread nD τ).loc main_arg3)) (m ((c : Thread nD τ).loc main_arg4)))
      (m ((c : Thread nD τ).loc main_arg5)) (m ((c : Thread nD τ).loc main_arg6)) := by
  show Spec.G (feat m c) (coord m c) (table m c) (weight m c) (biasVec m c) = _
  rw [feat_eq, coord_eq, table_eq, weight_eq, biasVec_eq]

end Cert.Bridge.Kernel

end
-- ==== Proof.lean ====
/-
  A POINT-CLOUD "TO RGB" LAYER: per-batch style modulation, a 256 → 3 linear map, a bias and a clip.

  Both programs first build a style table `S : [8, 256]` from the latent codes, the affine weight and the affine bias
  (`((w · awᵀ) · g + ab) · g'`, the same host operations with the same two f32 gain words on both sides). Then, for each
  of the 300000 points `n` with batch number `coord[n, 0]`,

      out[n, j] = min 256 (max (−256) (∑ₖ (x[n, k] · S[batch n, k]) · cw[k, j] + cb[j])).

  The reference picks the row `S[batch n]` by a gather. The kernel works on blocks of 4000 points and picks the row
  with a one-hot matrix product, `∑_b [b = batch n] · S[b, k]`, in which every term but one is `0 · s = 0` — true of every
  extended real — so the two agree with no finiteness assumption at all. They agree only where the batch number is a
  row of the table: outside 0 … 7 the one-hot row is all zeros while the gather clamps (and wraps a negative number).
  The precondition therefore carries `0 ≤ coord[n, 0] < 8` for every point; it is read off in Proof/BatchRange.lean.

  Proof/Spec.lean states the common value `G` and the one-hot law; Proof/RefValue.lean shows the reference's run ends at
  `G`; Proof/KernelPoint.lean evaluates the kernel's body at one point of a block; Proof/KernelArray.lean carries that
  over the 75 blocks to the whole result array. The kernel's idealization rewrote nothing, so `preserves` has no
  conjunct. The three frames are the generated ones (the reference's is its run with the result dropped).
-/
import proofs.«414444_j43104291782965_1_alg».proof.Defs
import proofs.«414444_j43104291782965_1_alg».proof.Proof.Gen.Kernel
import proofs.«414444_j43104291782965_1_alg».proof.Proof.Gen.Kernel.Skeleton
import proofs.«414444_j43104291782965_1_alg».proof.Proof.Gen.Kernel.Launch
import proofs.«414444_j43104291782965_1_alg».proof.Proof.Gen.Kernel.Points
import proofs.«414444_j43104291782965_1_alg».proof.Proof.Gen.Kernel.Frame
import proofs.«414444_j43104291782965_1_alg».proof.Proof.Gen.KernelIdeal
import proofs.«414444_j43104291782965_1_alg».proof.Proof.Gen.KernelIdeal.Skeleton
import proofs.«414444_j43104291782965_1_alg».proof.Proof.Gen.KernelIdeal.Launch
import proofs.«414444_j43104291782965_1_alg».proof.Proof.Gen.KernelIdeal.Points
import proofs.«414444_j43104291782965_1_alg».proof.Proof.Gen.KernelIdeal.Frame
import proofs.«414444_j43104291782965_1_alg».proof.Proof.Gen.ReferenceIdeal
import proofs.«414444_j43104291782965_1_alg».proof.Proof.Gen.Pre_finite_inputs
import proofs.«414444_j43104291782965_1_alg».proof.Proof.Gen.KernelIdeal.Value
import proofs.«414444_j43104291782965_1_alg».proof.Proof.Gen.ReferenceIdeal.Run
import proofs.«414444_j43104291782965_1_alg».proof.Proof.Gen.ReferenceIdeal.Read
import proofs.«414444_j43104291782965_1_alg».proof.Proof.BatchRange
import proofs.«414444_j43104291782965_1_alg».proof.Proof.RefValue
import proofs.«414444_j43104291782965_1_alg».proof.Proof.KernelArray
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs build the style table with the same operations: the kernel's host prefix and the reference's
    first eleven operations are one term of the three parameter arrays. -/
theorem styles_same (w : FVec Ideal Cert.KernelIdeal.S8x512 .f32) (aw : FVec Ideal Cert.KernelIdeal.S256x512 .f32)
    (ab : FVec Ideal Cert.KernelIdeal.S256 .f32) :
    Cert.Bridge.Kernel.stylesOf w aw ab = Cert.ReferenceIdeal.Read.val_main_v8 (F := Ideal) w aw ab := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `G` of the arguments: the kernel's by the blocks (Proof/KernelArray.lean),
    the reference's by its run read back (Proof/RefValue.lean); the precondition gives each the range of the batch
    numbers. -/
theorem algebraic : Cert.algebraic_KernelIdeal_ReferenceIdeal := by
  intro m ρ m' ρ' hpre hagree
  have hr : ∀ (c : Dev Cert.KernelIdeal.nD) (n : Fin 300000),
      0 ≤ ((m ((c.tc : Thread Cert.KernelIdeal.nD Cert.KernelIdeal.τ).loc Cert.KernelIdeal.main_arg1)) (ix2 n 0)).toInt
      ∧ ((m ((c.tc : Thread Cert.KernelIdeal.nD Cert.KernelIdeal.τ).loc Cert.KernelIdeal.main_arg1)) (ix2 n 0)).toInt < 8 :=
    fun c n => Cert.Bridge.Range.batch_in_range _ _ _ _ _ _ _ (hpre c) n
  refine ⟨fun c => Cert.Bridge.Kernel.Gk m c, ?_, ?_⟩
  · refine (θ_run Cert.KernelIdeal.defs _ _).mono (fun r h c => ⟨(h c).1.trans ?_, (h c).2⟩)
      (Cert.KernelIdeal.Value.run_blocks m ρ)
    refine Cert.Bridge.Kernel.final m c fun n => ?_
    rw [Cert.Bridge.Kernel.coord_eq]
    exact hr c n
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.Bridge.Ref.result_eq _ _ _ _ _ _ _ (fun n => by
      rw [(hagree c).2.1]; exact hr c n)]
    show _ = Cert.Bridge.Kernel.Gk m c
    rw [Cert.Bridge.Kernel.Gk_eq, styles_same,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
